-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S512x512 : Shape := ⟨2, ![512, 512]⟩
abbrev S512 : Shape := ⟨1, ![512]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_v33

def fn {F : FTy → Type} [FloatOps F] (main_arg0 : FVec F S32x512x512 .f32) (main_arg1 : FVec F S32x512x512 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S32x512x512 .f32 := Host.absf main_arg1
  let main_cst_0 : FVec F S_ .f32 := constant S_ .f32 0x7F800000#32
  let main_v5 : FVec F S32x512x512 .f32 := broadcastInDim S32x512x512 ![] bcast_S_S32x512x512 main_cst_0
  let main_v6 : IVec S32x512x512 1 := cmpf .olt main_v4 main_v5
  let main_c_1 : IVec S_ 1 := constantI S_ 1 1#1
  let main_v7 : IVec S_ 1 := (fun x v => Host.reduce IntOp.andi x v reducesTo_S32x512x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S32x512x512 : Shape := ⟨3, ![32, 512, 512]⟩
abbrev S512x512 : Shape := ⟨2, ![512, 512]⟩
abbrev S512 : Shape := ⟨1, ![512]⟩
abbrev S1x512 : Shape := ⟨2, ![1, 512]⟩
abbrev S1x512x512 : Shape := ⟨3, ![1, 512, 512]⟩

abbrev nBuf : Space → Nat
  | .hbm => 12
  | .vmem => 12
  | .smem => 0
  | _ => 0

abbrev bufTy : (tb : Table) → Fin (tcTables nBuf tb) → BufTy
  | .hbm, ⟨0, _⟩ => ⟨S32x512x512, .f32⟩
  | .hbm, ⟨1, _⟩ => ⟨S32x512x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S32x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S1x512x512, .f32⟩
  | .local _ .vmem, ⟨11, _⟩ => ⟨S1x512x512, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S512_S1x512 : S512.ShapeCasts S1x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S512x512_S1x512x512 : S512x512.ShapeCasts S1x512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S32x512x512.size a
  hwx0_1 : ∀ i : grid0.Coords, EltTy.bits .f32 = 32 ∨ (Rect.block (s := S32x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x512.size a ≤ S32x512x512.size a
  hwx0_8 : ∀ i : grid0.Coords, EltTy.bits .f32 = 32 ∨ (Rect.block (s := S32x512x512) S1x512x512.size (cc0_transform_8 i) (hinb0_8 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x512x512 : Shape := ⟨3, ![32, 512, 512]⟩
abbrev S512x512 : Shape := ⟨2, ![512, 512]⟩
abbrev S512 : Shape := ⟨1, ![512]⟩
abbrev S1x1x512 : Shape := ⟨3, ![1, 1, 512]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S32x512x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S32x512x512, .f32⟩
  | .hbm, ⟨9, _⟩ => ⟨S32x512x512, .f32⟩
  | .hbm, ⟨10, _⟩ => ⟨S1x1x512, .f32⟩
  | .hbm, ⟨11, _⟩ => ⟨S32x512x512, .f32⟩
  | .hbm, ⟨12, _⟩ => ⟨S32x512x512, .f32⟩
  | .hbm, ⟨13, _⟩ => ⟨S_, .f32⟩
  | .hbm, ⟨14, _⟩ => ⟨S32x512x512, .f32⟩
  | .hbm, ⟨15, _⟩ => ⟨S32x512x512, .f32⟩
  | .hbm, ⟨16, _⟩ => ⟨S32x512x512, .f32⟩
  | .hbm, ⟨17, _⟩ => ⟨S32x512x512, .f32⟩
  | .hbm, ⟨18, _⟩ => ⟨S1x1x512, .f32⟩
  | .hbm, ⟨19, _⟩ => ⟨S32x512x512, .f32⟩
  | .hbm, ⟨20, _⟩ => ⟨S32x512x512, .f32⟩
  | .hbm, ⟨21, _⟩ => ⟨S_, .f32⟩
  | .hbm, ⟨22, _⟩ => ⟨S32x512x512, .f32⟩
  | .hbm, ⟨23, _⟩ => ⟨S32x512x512, .f32⟩
  | .hbm, ⟨24, _⟩ => ⟨S32x512x512, .f32⟩
  | .hbm, ⟨25, _⟩ => ⟨S32x512x512, .f32⟩
  | .hbm, ⟨26, _⟩ => ⟨S1x1x512, .f32⟩
  | .hbm, ⟨27, _⟩ => ⟨S32x512x512, .f32⟩
  | .hbm, ⟨28, _⟩ => ⟨S32x512x512, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x512x512_0_1_2 : S1x1x512.BroadcastsInDim S32x512x512 (![0, 1, 2] : Fin 3 → Fin S32x512x512.rank)
  bcast_S_S32x512x512 : S_.BroadcastsInDim S32x512x512 (![] : Fin 0 → Fin S32x512x512.rank)
  dot_S32x512x512_S512x512_S32x512x512_2_0_01_1_n_n_wf : DotDims.WF S32x512x512 S512x512 S32x512x512 [2] [0] [0, 1] [1] [] []
  dot_S32x512x512_S32x512x512_S32x512x512_2_1_1_2_0_0_wf : DotDims.WF S32x512x512 S32x512x512 S32x512x512 [2] [1] [1] [2] [0] [0]

variable [Facts₀]

def dot_S32x512x512_S512x512_S32x512x512_2_0_01_1_n_n : DotDims S32x512x512 S512x512 S32x512x512 where
  lhsContracting := [2]
  rhsContracting := [0]
  lhsNonContracting := [0, 1]
  rhsNonContracting := [1]
  lhsBatch := []
  rhsBatch := []
  wf := dot_S32x512x512_S512x512_S32x512x512_2_0_01_1_n_n_wf
def dot_S32x512x512_S32x512x512_S32x512x512_2_1_1_2_0_0 : DotDims S32x512x512 S32x512x512 S32x512x512 where
  lhsContracting := [2]
  rhsContracting := [1]
  lhsNonContracting := [1]
  rhsNonContracting := [2]
  lhsBatch := [0]
  rhsBatch := [0]
  wf := dot_S32x512x512_S32x512x512_S32x512x512_2_1_1_2_0_0_wf

class Facts : Prop extends Facts₀ where

variable [Facts]
-- ==== Proof.Spec.lean ====
/-
  The mathematics both programs compute, stated once over the extended reals.

  One graph of the batch is a 512 × 512 feature matrix X and a 512 × 512 adjacency matrix A. A graph-convolution
  layer sends features H to  A · (H · W) + b,  the bias row b added to every row; the network is three such layers,
  the first two followed by  max(·, 0):

      net X A = A · (relu (A · (relu (A · (X · W0) + b0) · W1) + b1) · W2) + b2 .

  The 32 graphs of the batch are independent: entry (g, n, e) of the result is entry (n, e) of the network of
  graph g's features and graph g's adjacency.

  A product is the plain sum over the contraction index, in the index's own order, left factor first; nothing here
  reorders a sum or distributes a product, so no entry need be finite.
-/
import Idealize.ShloMosaic.Lib.ValueIdx
import Idealize.ShloMosaic.PureOps.Ideal.Laws

noncomputable section

namespace Cert.Gcn

open Idealize.ShloMosaic Idealize.ShloMosaic.ValueIdx

/-- A 512 × 512 matrix of extended reals. -/
abbrev Mat := (⟨2, ![512, 512]⟩ : Shape).Idx → EReal
/-- A row of 512 extended reals. -/
abbrev Row := (⟨1, ![512]⟩ : Shape).Idx → EReal
/-- A batch of 32 such matrices. -/
abbrev Batch := (⟨3, ![32, 512, 512]⟩ : Shape).Idx → EReal

/-- The zero both programs compare against in `max(·, 0)`: the word of +0.0, left as a word. -/
abbrev zeroWord : EReal := Ideal.ofBits .f32 0x00000000#32

/-- The matrix product: entry (p, q) is the sum over κ of l (p, κ) · r (κ, q). -/
def mm (l r : Mat) : Mat := fun j => ∑ κ : Fin 512, l (ix2 (j 0) κ) * r (ix2 κ (j 1))

/-- One layer before its activation: A · (H · W) + b, the bias row added to every row. -/
def affine (A H W : Mat) (b : Row) : Mat := fun j => mm A (mm H W) j + b (ix1 (j 1))

/-- max(·, 0), entry by entry. -/
def relu (Y : Mat) : Mat := fun j => max (Y j) zeroWord

/-- The three layers of one graph. -/
def net (X A W0 : Mat) (b0 : Row) (W1 : Mat) (b1 : Row) (W2 : Mat) (b2 : Row) : Mat :=
  affine A (relu (affine A (relu (affine A X W0 b0)) W1 b1)) W2 b2

/-- Graph g of a batch, as a matrix. -/
def graph (x : Batch) (g : Fin 32) : Mat := fun j => x (ix3 g (j 0) (j 1))

/-- The whole result: entry (g, n, e) is entry (n, e) of graph g's network. -/
def G (x adj : Batch) (W0 : Mat) (b0 : Row) (W1 : Mat) (b1 : Row) (W2 : Mat) (b2 : Row) : Batch :=
  fun i => net (graph x (i 0)) (graph adj (i 0)) W0 b0 W1 b1 W2 b2 (ix2 (i 1) (i 2))

/-! ## The same layers written over the whole batch

The batched form contracts inside each graph: entry (g, n, e) of a layer is
∑ κ, adj (g, n, κ) · (∑ δ, h (g, κ, δ) · W (δ, e)) + b e. Graph g of the batched layer is the layer of graph g. -/

/-- One layer over the batch, before its activation. -/
def affineB (adj h : Batch) (W : Mat) (b : Row) : Batch :=
  fun i => (∑ κ : Fin 512, adj (ix3 (i 0) (i 1) κ) * ∑ δ : Fin 512, h (ix3 (i 0) κ δ) * W (ix2 δ (i 2))) + b (ix1 (i 2))

/-- max(·, 0) over the batch. -/
def reluB (y : Batch) : Batch := fun i => max (y i) zeroWord

/-- Graph g of a batched layer is the layer of graph g. -/
theorem graph_affineB (adj h : Batch) (W : Mat) (b : Row) (g : Fin 32) :
    graph (affineB adj h W b) g = affine (graph adj g) (graph h g) W b := rfl

/-- Graph g of a batched activation is the activation of graph g. -/
theorem graph_reluB (y : Batch) (g : Fin 32) : graph (reluB y) g = relu (graph y g) := rfl

/-- A batched layer at (g, n, e) is graph g's layer at (n, e). -/
theorem affineB_apply (adj h : Batch) (W : Mat) (b : Row) (g : Fin 32) (n e : Fin 512) :
    affineB adj h W b (ix3 g n e) = affine (graph adj g) (graph h g) W b (ix2 n e) := rfl

/-- The result at (g, n, e) is graph g's network at (n, e). -/
theorem G_apply (x adj : Batch) (W0 : Mat) (b0 : Row) (W1 : Mat) (b1 : Row) (W2 : Mat) (b2 : Row) (g : Fin 32) (n e : Fin 512) :
    G x adj W0 b0 W1 b1 W2 b2 (ix3 g n e) = net (graph x g) (graph adj g) W0 b0 W1 b1 W2 b2 (ix2 n e) := rfl

/-- The three batched layers are the result `G`. -/
theorem batched_eq (x adj : Batch) (W0 : Mat) (b0 : Row) (W1 : Mat) (b1 : Row) (W2 : Mat) (b2 : Row) :
    affineB adj (reluB (affineB adj (reluB (affineB adj x W0 b0)) W1 b1)) W2 b2 = G x adj W0 b0 W1 b1 W2 b2 := by
  funext i
  obtain ⟨g, n, e, rfl⟩ : ∃ (g : Fin 32) (n e : Fin 512), i = ix3 g n e := ⟨i 0, i 1, i 2, eq_ix3 i⟩
  rw [affineB_apply, graph_reluB, graph_affineB, graph_reluB, graph_affineB, G_apply]
  rfl

end Cert.Gcn

end
-- ==== Proof.RefLayers.lean ====
/-
  The reference, read layer by layer.

  Its @main is three times the same stretch: a product of the features with a weight matrix (contracting the feature
  axis), a product of the adjacency with that (batched over the graph axis, contracting the node axis), the bias row
  broadcast over graphs and nodes and added; after the first two stretches max(·, 0) against a broadcast zero. Read at
  an entry (g, n, e) each stretch is the batched layer of the specification, so the whole result is `G`.
-/
import proofs.«178154_j59304908423673_1_alg».proof.Proof.Gen.ReferenceIdeal.Read
import proofs.«178154_j59304908423673_1_alg».proof.Proof.Spec

noncomputable section

namespace Cert.Gcn.Ref

open Cert.ReferenceIdeal Cert.ReferenceIdeal.Read Idealize.ShloMosaic Idealize.ShloMosaic.ValueIdx Cert.Gcn

/-! ## Where each operation of a stretch reads its operands, at the entry (g, n, e) -/

/-- The adjacency is read along row n of graph g. -/
theorem adj_at (g : Fin 32) (n e κ : Fin 512) : lidx_main_v1 (ix3 g n e) κ = ix3 g n κ :=
  funext fun a => by match a with | ⟨0, _⟩ => rfl | ⟨1, _⟩ => rfl | ⟨2, _⟩ => rfl

/-- The support is read down column e of graph g. -/
theorem supp_at (g : Fin 32) (n e κ : Fin 512) : ridx_main_v1 (ix3 g n e) κ = ix3 g κ e :=
  funext fun a => by match a with | ⟨0, _⟩ => rfl | ⟨1, _⟩ => rfl | ⟨2, _⟩ => rfl

/-- The features are read along row κ of graph g. -/
theorem feat_at (g : Fin 32) (κ e δ : Fin 512) : lidx_main_v0 (ix3 g κ e) δ = ix3 g κ δ :=
  funext fun a => by match a with | ⟨0, _⟩ => rfl | ⟨1, _⟩ => rfl | ⟨2, _⟩ => rfl

/-- The weights are read down column e. -/
theorem weight_at (g : Fin 32) (κ e δ : Fin 512) : ridx_main_v0 (ix3 g κ e) δ = ix2 δ e :=
  funext fun a => by match a with | ⟨0, _⟩ => rfl | ⟨1, _⟩ => rfl

/-- The bias is read at the feature coordinate e. -/
theorem bias_at (g : Fin 32) (n e : Fin 512) : idx_main_v2 (idx_main_v3 (ix3 g n e)) = ix1 e :=
  funext fun a => by match a with | ⟨0, _⟩ => rfl

/-! ## One stretch is one batched layer -/

/-- The stretch's sum at (g, n, e): ∑ κ, adj (g, n, κ) · (∑ δ, h (g, κ, δ) · W (δ, e)) + b e. -/
theorem layer_apply (h adj : (⟨S32x512x512, .f32⟩ : BufTy).Contents (Elt Ideal)) (W : (⟨S512x512, .f32⟩ : BufTy).Contents (Elt Ideal))
    (b : (⟨S512, .f32⟩ : BufTy).Contents (Elt Ideal)) (g : Fin 32) (n e : Fin 512) :
    val_main_v4 (F := Ideal) h adj W b (ix3 g n e) = affineB adj h W b (ix3 g n e) := by
  rw [val_main_v4_apply, val_main_v1_apply, val_main_v3_apply, val_main_v2_apply]
  simp only [val_main_v0_apply, adj_at, supp_at, feat_at, weight_at, bias_at]
  rfl

/-- The stretch as a whole. -/
theorem layer_eq (h adj : (⟨S32x512x512, .f32⟩ : BufTy).Contents (Elt Ideal)) (W : (⟨S512x512, .f32⟩ : BufTy).Contents (Elt Ideal))
    (b : (⟨S512, .f32⟩ : BufTy).Contents (Elt Ideal)) :
    val_main_v4 (F := Ideal) h adj W b = affineB adj h W b := by
  funext i
  obtain ⟨g, n, e, rfl⟩ : ∃ (g : Fin 32) (n e : Fin 512), i = ix3 g n e := ⟨i 0, i 1, i 2, eq_ix3 i⟩
  exact layer_apply h adj W b g n e

/-- The stretch followed by max(·, 0) against the broadcast zero. -/
theorem act_eq (h adj : (⟨S32x512x512, .f32⟩ : BufTy).Contents (Elt Ideal)) (W : (⟨S512x512, .f32⟩ : BufTy).Contents (Elt Ideal))
    (b : (⟨S512, .f32⟩ : BufTy).Contents (Elt Ideal)) :
    val_main_v5 (F := Ideal) h adj W b = reluB (affineB adj h W b) := by
  funext i
  rw [val_main_v5_apply, val_main_call0_v0_apply, val_main_call0_cst_apply, layer_eq]
  rfl

/-! ## The three stretches -/

/-- The reference's result is `G` of its arguments. -/
theorem result_eq (x0 x1 : (⟨S32x512x512, .f32⟩ : BufTy).Contents (Elt Ideal)) (x2 : (⟨S512x512, .f32⟩ : BufTy).Contents (Elt Ideal))
    (x3 : (⟨S512, .f32⟩ : BufTy).Contents (Elt Ideal)) (x4 : (⟨S512x512, .f32⟩ : BufTy).Contents (Elt Ideal))
    (x5 : (⟨S512, .f32⟩ : BufTy).Contents (Elt Ideal)) (x6 : (⟨S512x512, .f32⟩ : BufTy).Contents (Elt Ideal))
    (x7 : (⟨S512, .f32⟩ : BufTy).Contents (Elt Ideal)) :
    val_main_v16 (F := Ideal) x0 x1 x2 x3 x4 x5 x6 x7 = G x0 x1 x2 x3 x4 x5 x6 x7 := by
  rw [← batched_eq]
  show val_main_v4 (F := Ideal) (val_main_v5 (F := Ideal) (val_main_v5 (F := Ideal) x0 x1 x2 x3) x1 x4 x5) x1 x6 x7 = _
  rw [act_eq, act_eq, layer_eq]

end Cert.Gcn.Ref

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.KernelPayload.lean ====
/-
  The kernel's body, as arithmetic on the blocks it loads.

  At one grid point the body holds graph g's feature block and adjacency block (each a [1, 512, 512] block, read as its
  one 512 × 512 matrix), the three weight matrices whole, and the three biases as [1, 512] rows. Changing the float
  format is the identity on extended reals, a product into a zero accumulator is the plain sum over the contraction
  index, a [1, 512] row broadcast to [512, 512] puts entry q of the row in column q, and max against a splat of the
  zero word is max(·, 0). So what the body computes before its last bias is
      A · (relu (A · (relu (A · (X · W0) + b0) · W1) + b1) · W2),
  and with the last bias row added it is the network of the specification.
-/
import proofs.«178154_j59304908423673_1_alg».proof.Proof.Gen.KernelIdeal.Skeleton
import proofs.«178154_j59304908423673_1_alg».proof.Proof.Spec
import proofs.«178154_j59304908423673_1_alg».proof.Proof.LibPlainDot
import Idealize.ShloMosaic.Lib.Pipeline.Value

noncomputable section

namespace Cert.Gcn.Body

open Cert.KernelIdeal Cert.KernelIdeal.Gen Idealize.ShloMosaic Idealize.ShloMosaic.ValueIdx Cert.Gcn

/-- A [1, 512, 512] block read as its one matrix. -/
def mat (P : Vec Ideal S1x512x512 .f32) : Mat := fun j => P (ix3 0 (j 0) (j 1))

/-- A [1, 512] block read as its one row. -/
def row (P : Vec Ideal S1x512 .f32) : Row := fun r => P (ix2 0 (r 0))

/-- The body's matrix products are plain: rows from the left operand, columns from the right, one contracted axis. -/
theorem plain : Cert.PlainDot.Plain dot_S512x512_S512x512_S512x512_1_0_0_1_n_n := ⟨rfl, rfl, rfl, rfl, rfl, rfl⟩

/-- Dropping the unit axis of a block: entry (p, q) of the matrix is entry (0, p, q) of the block. -/
theorem cast_eq (P : Vec Ideal S1x512x512 .f32) : shapeCast S512x512 P shapeCasts_S1x512x512_S512x512 = mat P := by
  funext j
  obtain ⟨p, q, rfl⟩ : ∃ (p q : Fin 512), j = ix2 p q := ⟨j 0, j 1, eq_ix2 j⟩
  refine (shapeCast_apply P _ (ix2 p q) (ix3 0 p q) ?_).trans rfl
  rw [Shape.rowMajor_val_three, Shape.rowMajor_val_two]
  show (0 * 512 + p.val) * 512 + q.val = p.val * 512 + q.val
  omega

/-- A change of float format is the identity on extended reals. -/
theorem trunc_eq {s : Shape} (a : FVec Ideal s .f32) (h : FTy.bits .bf16 < FTy.bits .f32) :
    (truncf .bf16 a h : FVec Ideal s .bf16) = a := rfl

/-- A product into a zero accumulator is the matrix product. -/
theorem mm_eq {φ₁ φ₂ : FTy} (l : FVec Ideal S512x512 φ₁) (r : FVec Ideal S512x512 φ₂) :
    matmul dot_S512x512_S512x512_S512x512_1_0_0_1_n_n none l r (constant S512x512 .f32 0x00000000#32) = mm l r := by
  funext j
  obtain ⟨p, q, rfl⟩ : ∃ (p q : Fin 512), j = ix2 p q := ⟨j 0, j 1, eq_ix2 j⟩
  exact Cert.PlainDot.matmul_zero_apply plain rfl rfl none l r p q

/-- A bias row broadcast over the rows of a matrix: column q holds entry q of the row. -/
theorem bias_eq (P : Vec Ideal S1x512 .f32) :
    broadcastTo S512x512 (shapeCast S1x512 P shapeCasts_S1x512_S1x512) broadcasts_S1x512_S512x512 = fun j => row P (ix1 (j 1)) := by
  funext j
  obtain ⟨p, q, rfl⟩ : ∃ (p q : Fin 512), j = ix2 p q := ⟨j 0, j 1, eq_ix2 j⟩
  rw [shapeCast_self]
  exact broadcastTo_apply P broadcasts_S1x512_S512x512 (ix2 p q) (ix2 0 q) (fun a => match a with
    | ⟨0, _⟩ => by show 0 = if (1 : Nat) = 1 then 0 else p.val; rw [if_pos rfl]
    | ⟨1, _⟩ => by show q.val = if (512 : Nat) = 1 then 0 else q.val; rw [if_neg (by decide)])

/-- Products, then the broadcast bias added: one layer before its activation. -/
theorem affine_eq (A H W : Mat) (P : Vec Ideal S1x512 .f32) :
    addf (F := Ideal) (φ := .f32) (mm A (mm H W)) (broadcastTo S512x512 (shapeCast S1x512 P shapeCasts_S1x512_S1x512) broadcasts_S1x512_S512x512)
      = affine A H W (row P) := by
  rw [bias_eq]
  rfl

/-- max against a splat of the zero word is max(·, 0). -/
theorem relu_eq (Y : Mat) :
    maximumf (F := Ideal) (φ := .f32) Y (broadcast S512x512 (Scalar.ofBits (F := Ideal) .f32 0x00000000#32)) = relu Y := rfl

/-- What the body holds before its last bias: A · (relu (A · (relu (A · (X · W0) + b0) · W1) + b1) · W2). -/
theorem pay2_eq (P0 P1 : Vec Ideal S1x512x512 .f32) (P2 : Vec Ideal S512x512 .f32) (P3 : Vec Ideal S1x512 .f32)
    (P4 : Vec Ideal S512x512 .f32) (P5 : Vec Ideal S1x512 .f32) (P6 : Vec Ideal S512x512 .f32) :
    k0_pay2 (F := Ideal) P0 P1 P2 P3 P4 P5 P6
      = mm (mat P1) (mm (relu (affine (mat P1) (relu (affine (mat P1) (mat P0) P2 (row P3))) P4 (row P5))) P6) := by
  unfold k0_pay2
  simp only [trunc_eq, mm_eq, affine_eq, relu_eq]
  rw [← cast_eq P1, ← cast_eq P0]

end Cert.Gcn.Body

end
-- ==== Proof.KernelValue.lean ====
/-
  From the kernel's blocks to its result array.

  The grid has one point per graph. At point t the feature window and the adjacency window hold graph t's block, the
  three weight windows hold their matrices whole, the three bias windows hold the biases as [1, 512] rows (each bias
  reshaped before the call), and the output window's block is graph t's slab of the result. The body leaves in that block
  the network of the blocks it loaded, so point t writes back graph t's slab of `G` of the argument arrays; the 32 slabs
  tile the result, so after the run the result array is `G`.
-/
import proofs.«178154_j59304908423673_1_alg».proof.Proof.Gen.KernelIdeal.Value
import proofs.«178154_j59304908423673_1_alg».proof.Proof.KernelPayload
import Idealize.ShloMosaic.Lib.StableHlo.Run

noncomputable section

namespace Cert.Gcn.Kernel

open Cert.KernelIdeal Cert.KernelIdeal.Gen Cert.KernelIdeal.Value Idealize.ShloMosaic Idealize.ShloMosaic.TcCoe Idealize.SL.Sem
open Idealize.ShloMosaic.ValueIdx Cert.Gcn Cert.Gcn.Body
open Idealize.ShloMosaic.Pipeline (Dat)

/-! ## What the body leaves in the output block -/

/-- Entry (0, n, e) of the block is entry (n, e) of the network of the loaded blocks. -/
def blockNet (x0 x1 : Vec Ideal S1x512x512 .f32) (x2 : Vec Ideal S512x512 .f32) (x3 : Vec Ideal S1x512 .f32)
    (x4 : Vec Ideal S512x512 .f32) (x5 : Vec Ideal S1x512 .f32) (x6 : Vec Ideal S512x512 .f32) (x7 : Vec Ideal S1x512 .f32) :
    Vec Ideal S1x512x512 .f32 :=
  fun y => net (mat x0) (mat x1) x2 (row x3) x4 (row x5) x6 (row x7) (ix2 (y 1) (y 2))

theorem origin3 : (![0, 0, 0] : Fin 3 → Nat) = fun _ => 0 := funext fun a => by fin_cases a <;> rfl
theorem origin2 : (![0, 0] : Fin 2 → Nat) = fun _ => 0 := funext fun a => by fin_cases a <;> rfl

/-- The body's one store covers the block, and its value is the products' result plus the last bias row. -/
theorem out_eq (x0 x1 : Vec Ideal S1x512x512 .f32) (x2 : Vec Ideal S512x512 .f32) (x3 : Vec Ideal S1x512 .f32)
    (x4 : Vec Ideal S512x512 .f32) (x5 : Vec Ideal S1x512 .f32) (x6 : Vec Ideal S512x512 .f32) (x7 : Vec Ideal S1x512 .f32) :
    out0_8 (F := Ideal) x0 x1 x2 x3 x4 x5 x6 x7 = blockNet x0 x1 x2 x3 x4 x5 x6 x7 := by
  funext y
  unfold out0_8
  simp only [View.ld_unit_zero (S := S1x512x512) origin3, View.ld_unit_zero (S := S512x512) origin2, View.ld_unit_zero (S := S1x512) origin2]
  rw [canon8_eq]
  obtain ⟨z, n, e, rfl⟩ : ∃ (z : Fin 1) (n e : Fin 512), y = ix3 z n e := ⟨y 0, y 1, y 2, eq_ix3 y⟩
  show FloatOps.addf (k0_pay2 x0 x1 x2 x3 x4 x5 x6 (ix8_0 (ix3 z n e))) (x7 (ix8_1 (ix3 z n e))) = _
  rw [pay2_eq]
  have e0 : ix8_0 (ix3 z n e) = ix2 n e := funext fun a => by match a with | ⟨0, _⟩ => rfl | ⟨1, _⟩ => rfl
  have e1 : ix8_1 (ix3 z n e) = ix2 0 e := funext fun a => by match a with | ⟨0, _⟩ => rfl | ⟨1, _⟩ => rfl
  rw [e0, e1]
  rfl

/-! ## The windows' blocks, read off the argument arrays -/

variable (m : (ℓ : Loc nD τ sig) → Buf (Elt Ideal) ℓ) (ρ : Dev nD → PrngReg)

/-- The result array: `G` of the eight argument arrays. -/
abbrev result (c : Dev nD) : Batch :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The printed index maps, decided over the 32 points: the batched windows sit at block (t, 0, 0), the others at the origin. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 3) = t.val ∧ win0_8.index t (1 : Fin 3) = 0 ∧ win0_8.index t (2 : Fin 3) = 0) :=
  (by decide +kernel : ∀ t : Fin grid0.N, _)

/-- Point t's feature block is graph t of the feature array. -/
theorem feat_blk (c : Dev nD) (t : Fin cfg0.N) (g : Fin 32) (hg : g.val = t.val) :
    mat (iblk m c 0 t) = graph (m ((c : Thread nD τ).loc main_arg0)) g := by
  funext j
  obtain ⟨p, q, rfl⟩ : ∃ (p q : Fin 512), j = ix2 p q := ⟨j 0, j 1, eq_ix2 j⟩
  obtain ⟨⟨e0, e1, e2⟩, -⟩ := idx_facts t
  show V m c main_arg0 (((cfg0.win 0).blk t).view.emb (ix3 0 p q)) = m ((c : Thread nD τ).loc main_arg0) (ix3 g p q)
  rw [V_main_arg0]
  refine congrArg _ (funext fun a => Fin.ext ?_)
  match a with
  | ⟨0, _⟩ => show win0_0.index t (0 : Fin 3) * 1 + 1 * 0 = g.val; omega
  | ⟨1, _⟩ => show win0_0.index t (1 : Fin 3) * 512 + 1 * p.val = p.val; omega
  | ⟨2, _⟩ => show win0_0.index t (2 : Fin 3) * 512 + 1 * q.val = q.val; omega

/-- Point t's adjacency block is graph t of the adjacency array. -/
theorem adj_blk (c : Dev nD) (t : Fin cfg0.N) (g : Fin 32) (hg : g.val = t.val) :
    mat (iblk m c 1 t) = graph (m ((c : Thread nD τ).loc main_arg1)) g := by
  funext j
  obtain ⟨p, q, rfl⟩ : ∃ (p q : Fin 512), j = ix2 p q := ⟨j 0, j 1, eq_ix2 j⟩
  obtain ⟨-, ⟨e0, e1, e2⟩, -⟩ := idx_facts t
  show V m c main_arg1 (((cfg0.win 1).blk t).view.emb (ix3 0 p q)) = m ((c : Thread nD τ).loc main_arg1) (ix3 g p q)
  rw [V_main_arg1]
  refine congrArg _ (funext fun a => Fin.ext ?_)
  match a with
  | ⟨0, _⟩ => show win0_1.index t (0 : Fin 3) * 1 + 1 * 0 = g.val; omega
  | ⟨1, _⟩ => show win0_1.index t (1 : Fin 3) * 512 + 1 * p.val = p.val; omega
  | ⟨2, _⟩ => show win0_1.index t (2 : Fin 3) * 512 + 1 * q.val = q.val; omega

/-- A weight window's block is the whole weight matrix, at every point. -/
theorem w0_blk (c : Dev nD) (t : Fin cfg0.N) : (iblk m c 2 t : Vec Ideal S512x512 .f32) = m ((c : Thread nD τ).loc main_arg2) := by
  funext j
  obtain ⟨-, -, ⟨e0, e1⟩, -⟩ := idx_facts t
  show V m c main_arg2 (((cfg0.win 2).blk t).view.emb j) = m ((c : Thread nD τ).loc main_arg2) j
  rw [V_main_arg2]
  refine congrArg _ (funext fun a => Fin.ext ?_)
  match a with
  | ⟨0, _⟩ => show win0_2.index t (0 : Fin 2) * 512 + 1 * (j 0).val = (j 0).val; omega
  | ⟨1, _⟩ => show win0_2.index t (1 : Fin 2) * 512 + 1 * (j 1).val = (j 1).val; omega

theorem w1_blk (c : Dev nD) (t : Fin cfg0.N) : (iblk m c 4 t : Vec Ideal S512x512 .f32) = m ((c : Thread nD τ).loc main_arg4) := by
  funext j
  obtain ⟨-, -, -, -, ⟨e0, e1⟩, -⟩ := idx_facts t
  show V m c main_arg4 (((cfg0.win 4).blk t).view.emb j) = m ((c : Thread nD τ).loc main_arg4) j
  rw [V_main_arg4]
  refine congrArg _ (funext fun a => Fin.ext ?_)
  match a with
  | ⟨0, _⟩ => show win0_4.index t (0 : Fin 2) * 512 + 1 * (j 0).val = (j 0).val; omega
  | ⟨1, _⟩ => show win0_4.index t (1 : Fin 2) * 512 + 1 * (j 1).val = (j 1).val; omega

theorem w2_blk (c : Dev nD) (t : Fin cfg0.N) : (iblk m c 6 t : Vec Ideal S512x512 .f32) = m ((c : Thread nD τ).loc main_arg6) := by
  funext j
  obtain ⟨-, -, -, -, -, -, ⟨e0, e1⟩, -⟩ := idx_facts t
  show V m c main_arg6 (((cfg0.win 6).blk t).view.emb j) = m ((c : Thread nD τ).loc main_arg6) j
  rw [V_main_arg6]
  refine congrArg _ (funext fun a => Fin.ext ?_)
  match a with
  | ⟨0, _⟩ => show win0_6.index t (0 : Fin 2) * 512 + 1 * (j 0).val = (j 0).val; omega
  | ⟨1, _⟩ => show win0_6.index t (1 : Fin 2) * 512 + 1 * (j 1).val = (j 1).val; omega

/-- A bias reshaped to [1, 512], read at (0, q), is the bias at q. -/
theorem reshaped_row (b : (⟨1, ![512]⟩ : Shape).Idx → EReal) (q : Fin 512) :
    shapeCast S1x512 b shapeCasts_S512_S1x512 (ix2 0 q) = b (ix1 q) := by
  refine shapeCast_apply b _ (ix2 0 q) (ix1 q) ?_
  rw [Shape.rowMajor_val_one, Shape.rowMajor_val_two]
  show q.val = 0 * 512 + q.val
  omega

/-- The three bias windows' arrays are written before the call: each is its bias reshaped to one row. -/
theorem b0_arr (c : Dev nD) : (V m c main_v0 : S1x512.Idx → EReal) = shapeCast S1x512 (m ((c : Thread nD τ).loc main_arg3)) shapeCasts_S512_S1x512 := by
  dsimp only [V, hostOps0]; after_results; rfl
theorem b1_arr (c : Dev nD) : (V m c main_v1 : S1x512.Idx → EReal) = shapeCast S1x512 (m ((c : Thread nD τ).loc main_arg5)) shapeCasts_S512_S1x512 := by
  dsimp only [V, hostOps0]; after_results; rfl
theorem b2_arr (c : Dev nD) : (V m c main_v2 : S1x512.Idx → EReal) = shapeCast S1x512 (m ((c : Thread nD τ).loc main_arg7)) shapeCasts_S512_S1x512 := by
  dsimp only [V, hostOps0]; after_results; rfl

/-- A bias window's block, read as a row, is the bias. -/
theorem b0_blk (c : Dev nD) (t : Fin cfg0.N) : row (iblk m c 3 t) = m ((c : Thread nD τ).loc main_arg3) := by
  funext r
  obtain ⟨q, rfl⟩ : ∃ q : Fin 512, r = ix1 q := ⟨r 0, eq_ix1 r⟩
  obtain ⟨-, -, -, ⟨e0, e1⟩, -⟩ := idx_facts t
  show (V m c main_v0 : S1x512.Idx → EReal) (((cfg0.win 3).blk t).view.emb (ix2 0 q)) = _
  have he : ((cfg0.win 3).blk t).view.emb (ix2 0 q) = ix2 0 q := funext fun a => Fin.ext (by
    match a with
    | ⟨0, _⟩ => show win0_3.index t (0 : Fin 2) * 1 + 1 * 0 = 0; omega
    | ⟨1, _⟩ => show win0_3.index t (1 : Fin 2) * 512 + 1 * q.val = q.val; omega)
  rw [he, b0_arr, reshaped_row]

theorem b1_blk (c : Dev nD) (t : Fin cfg0.N) : row (iblk m c 5 t) = m ((c : Thread nD τ).loc main_arg5) := by
  funext r
  obtain ⟨q, rfl⟩ : ∃ q : Fin 512, r = ix1 q := ⟨r 0, eq_ix1 r⟩
  obtain ⟨-, -, -, -, -, ⟨e0, e1⟩, -⟩ := idx_facts t
  show (V m c main_v1 : S1x512.Idx → EReal) (((cfg0.win 5).blk t).view.emb (ix2 0 q)) = _
  have he : ((cfg0.win 5).blk t).view.emb (ix2 0 q) = ix2 0 q := funext fun a => Fin.ext (by
    match a with
    | ⟨0, _⟩ => show win0_5.index t (0 : Fin 2) * 1 + 1 * 0 = 0; omega
    | ⟨1, _⟩ => show win0_5.index t (1 : Fin 2) * 512 + 1 * q.val = q.val; omega)
  rw [he, b1_arr, reshaped_row]

theorem b2_blk (c : Dev nD) (t : Fin cfg0.N) : row (iblk m c 7 t) = m ((c : Thread nD τ).loc main_arg7) := by
  funext r
  obtain ⟨q, rfl⟩ : ∃ q : Fin 512, r = ix1 q := ⟨r 0, eq_ix1 r⟩
  obtain ⟨-, -, -, -, -, -, -, ⟨e0, e1⟩, -⟩ := idx_facts t
  show (V m c main_v2 : S1x512.Idx → EReal) (((cfg0.win 7).blk t).view.emb (ix2 0 q)) = _
  have he : ((cfg0.win 7).blk t).view.emb (ix2 0 q) = ix2 0 q := funext fun a => Fin.ext (by
    match a with
    | ⟨0, _⟩ => show win0_7.index t (0 : Fin 2) * 1 + 1 * 0 = 0; omega
    | ⟨1, _⟩ => show win0_7.index t (1 : Fin 2) * 512 + 1 * q.val = q.val; omega)
  rw [he, b2_arr, reshaped_row]

/-! ## What a point writes back, the cover, and the array after the run -/

/-- Point t writes back graph t's slab of the result. -/
theorem flushed_eq (c : Dev nD) (t : Fin cfg0.N) :
    (dats m 0 c).flushed 8 t = ((cfg0.win 8).blk t).view.read (Elt Ideal) (result m c) := by
  rw [flushed8, out_eq]
  apply funext
  intro (y : S1x512x512.Idx)
  obtain ⟨z, n, e, rfl⟩ : ∃ (z : Fin 1) (n e : Fin 512), y = ix3 z n e := ⟨y 0, y 1, y 2, eq_ix3 y⟩
  obtain ⟨-, -, -, -, -, -, -, -, ⟨e0, e1, e2⟩⟩ := idx_facts t
  have hz : z.val = 0 := by have := z.isLt; omega
  obtain ⟨g, hg⟩ : ∃ g : Fin 32, g.val = t.val := ⟨⟨t.val, t.isLt⟩, rfl⟩
  have he : ((cfg0.win 8).blk t).view.emb (ix3 z n e) = ix3 g n e := funext fun a => Fin.ext (by
    match a with
    | ⟨0, _⟩ => show win0_8.index t (0 : Fin 3) * 1 + 1 * z.val = g.val; omega
    | ⟨1, _⟩ => show win0_8.index t (1 : Fin 3) * 512 + 1 * n.val = n.val; omega
    | ⟨2, _⟩ => show win0_8.index t (2 : Fin 3) * 512 + 1 * e.val = e.val; omega)
  show net (mat (iblk m c 0 t)) (mat (iblk m c 1 t)) (iblk m c 2 t) (row (iblk m c 3 t)) (iblk m c 4 t) (row (iblk m c 5 t)) (iblk m c 6 t) (row (iblk m c 7 t)) (ix2 n e)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (((cfg0.win 8).blk t).view.emb (ix3 z n e))
  rw [he, G_apply, feat_blk m c t g hg, adj_blk m c t g hg, w0_blk, b0_blk, w1_blk, b1_blk, w2_blk, b2_blk]

/-- An index of the result is in point t's block iff each coordinate is in the block's range on its axis. -/
theorem mem_blk (t : Fin cfg0.N) (i : S32x512x512.Idx) :
    i ∈ ((cfg0.win 8).blk t).view.set ↔ ∀ a : Fin 3, win0_8.index t a * S1x512x512.size a ≤ (i a).val ∧ (i a).val < win0_8.index t a * S1x512x512.size a + S1x512x512.size a := by
  show i ∈ ((View.whole main_v3).slice (win0_8.rect t)).set ↔ _
  rw [View.set_slice_whole, Rect.mem_set_unit]
  exact Iff.rfl

/-- Entry (g, n, e) lies in point g's block: the 32 slabs cover the result. -/
theorem cover (i : S32x512x512.Idx) : ∃ t : Fin cfg0.N, (cfg0.win 8).flush t = true ∧ i ∈ ((cfg0.win 8).blk t).view.set := by
  have h0 : (i 0).val < 32 := (i 0).isLt
  have h1 : (i 1).val < 512 := (i 1).isLt
  have h2 : (i 2).val < 512 := (i 2).isLt
  obtain ⟨t, ht⟩ : ∃ t : Fin cfg0.N, t.val = (i 0).val := ⟨⟨(i 0).val, h0⟩, rfl⟩
  refine ⟨t, flush0_8 t, ?_⟩
  obtain ⟨-, -, -, -, -, -, -, -, ⟨e0, e1, e2⟩⟩ := idx_facts t
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 512 ≤ (i 2).val ∧ (i 2).val < win0_8.index t (2 : Fin 3) * 512 + 512; omega

/-- After the run the result array is `G` of the argument arrays. -/
theorem final (c : Dev nD) : (dats m 0 c).arrAt 8 cfg0.N = result m c :=
  (dats m 0 c).arrAt_eq_of_cover 8 (result m c) (fun t _ => flushed_eq m c t) cover

/-- The kernel's run: it ends with the result at `G` of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.Gcn.Kernel

end
-- ==== Proof.lean ====
/-
  A three-layer dense graph convolution over a batch of 32 graphs, each with 512 nodes and 512 features:

      h₁ = relu (A · (X · W0) + b0),   h₂ = relu (A · (h₁ · W1) + b1),   out = A · (h₂ · W2) + b2,

  A the graph's own adjacency block, the bias row added to every row, relu = max(·, 0).

  The kernel runs one grid point per graph: it loads the graph's feature and adjacency blocks, the three weight
  matrices and the three biases (reshaped to rows), rounds the operands of every product to a narrower float format,
  multiplies into zero accumulators, and stores the graph's slab of the result. The reference contracts the whole batch
  at once: features with weights over the feature axis, then adjacency with that over the node axis inside each graph.

  On extended reals a change of float format is the identity and every product, the kernel's and the reference's, is the
  plain sum over its contraction index in the same order with the same factor on the left, so both results are the one
  function `Cert.Gcn.G` of the eight arguments, entry by entry; no law that could fail at an infinity is used, and
  the precondition is never opened. The idealized kernel is the kernel's own text read on extended reals (the ideal pass
  rewrote nothing), and each program's frame is its run with the result dropped.
-/
import proofs.«178154_j59304908423673_1_alg».proof.Defs
import proofs.«178154_j59304908423673_1_alg».proof.Proof.Gen.Kernel
import proofs.«178154_j59304908423673_1_alg».proof.Proof.Gen.Kernel.Skeleton
import proofs.«178154_j59304908423673_1_alg».proof.Proof.Gen.Kernel.Launch
import proofs.«178154_j59304908423673_1_alg».proof.Proof.Gen.Kernel.Points
import proofs.«178154_j59304908423673_1_alg».proof.Proof.Gen.Kernel.Frame
import proofs.«178154_j59304908423673_1_alg».proof.Proof.Gen.KernelIdeal
import proofs.«178154_j59304908423673_1_alg».proof.Proof.Gen.KernelIdeal.Skeleton
import proofs.«178154_j59304908423673_1_alg».proof.Proof.Gen.KernelIdeal.Launch
import proofs.«178154_j59304908423673_1_alg».proof.Proof.Gen.KernelIdeal.Points
import proofs.«178154_j59304908423673_1_alg».proof.Proof.Gen.KernelIdeal.Frame
import proofs.«178154_j59304908423673_1_alg».proof.Proof.Gen.ReferenceIdeal
import proofs.«178154_j59304908423673_1_alg».proof.Proof.Gen.Pre_finite_inputs
import proofs.«178154_j59304908423673_1_alg».proof.Proof.Gen.KernelIdeal.Value
import proofs.«178154_j59304908423673_1_alg».proof.Proof.Gen.ReferenceIdeal.Run
import proofs.«178154_j59304908423673_1_alg».proof.Proof.Gen.ReferenceIdeal.Read
import proofs.«178154_j59304908423673_1_alg».proof.Proof.RefLayers
import proofs.«178154_j59304908423673_1_alg».proof.Proof.KernelValue
import Idealize.ShloMosaic.Adequacy
import Idealize.ShloMosaic.Init

noncomputable section

namespace Cert.Proof

open Idealize.ShloMosaic Idealize.SL.Sem

/-- The word-level kernel terminates, faults nowhere and leaves its arguments as they were. -/
theorem frame_kernel : Cert.frame_Kernel := fun m ρ _ => Cert.Kernel.Gen.frame m ρ

/-- So does the kernel read on extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the eight arguments, the kernel ends with its result at `G` of them (its 32 slabs, each the
    network of one graph) and the reference at its three batched layers of them, which is `G` again. -/
theorem algebraic : Cert.algebraic_KernelIdeal_ReferenceIdeal := by
  intro m ρ m' ρ' _ hagree
  refine ⟨_, Cert.Gcn.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.ReferenceIdeal.Read.val_main_v16_eq _ _ _ _ _ _ _ _).trans (Cert.Gcn.Ref.result_eq _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
